-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S200000 32) (main_arg2 : IVec S200000 32) (main_arg3 : FVec F S1024x1024 .f32) (main_arg4 : FVec F S1024 .f32) (main_arg5 : FVec F S1024x1 .f32) (main_arg6 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg5
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg6 main_v13 main_v16
-- ==== Kernel.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S200000x1 : Shape := ⟨2, ![200000, 1]⟩
abbrev S200000x512 : Shape := ⟨2, ![200000, 512]⟩
abbrev S512x1024 : Shape := ⟨2, ![512, 1024]⟩
abbrev S1x1024 : Shape := ⟨2, ![1, 1024]⟩
abbrev S1x1 : Shape := ⟨2, ![1, 1]⟩
abbrev S2000x512 : Shape := ⟨2, ![2000, 512]⟩
abbrev S2000x1 : Shape := ⟨2, ![2000, 1]⟩
abbrev S2000x1024 : Shape := ⟨2, ![2000, 1024]⟩

abbrev nBuf : Space → Nat
  | .hbm => 35
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S200000, .i32⟩
  | .hbm, ⟨2, _⟩ => ⟨S200000, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S_, .i32⟩
  | .hbm, ⟨8, _⟩ => ⟨S200000, .i32⟩
  | .hbm, ⟨9, _⟩ => ⟨S200000, .i1⟩
  | .hbm, ⟨10, _⟩ => ⟨S_, .i32⟩
  | .hbm, ⟨11, _⟩ => ⟨S200000, .i32⟩
  | .hbm, ⟨12, _⟩ => ⟨S200000, .i32⟩
  | .hbm, ⟨13, _⟩ => ⟨S200000, .i32⟩
  | .hbm, ⟨14, _⟩ => ⟨S200000x1, .i32⟩
  | .hbm, ⟨15, _⟩ => ⟨S200000x512, .f32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x512, .f32⟩
  | .hbm, ⟨25, _⟩ => ⟨S200000x512, .bf16⟩
  | .hbm, ⟨26, _⟩ => ⟨S200000x512, .bf16⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1, .bf16⟩
  | .hbm, ⟨32, _⟩ => ⟨S1x1024, .f32⟩
  | .hbm, ⟨33, _⟩ => ⟨S1x1, .f32⟩
  | .hbm, ⟨34, _⟩ => ⟨S200000x1, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1, .bf16⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bitsLt_bf16_f32 : FTy.bits .bf16 < FTy.bits .f32
  slices_S1024x1024_S512x1024_0_0 : S1024x1024.Slices ![0, 0] S512x1024
  slices_S1024x1024_S512x1024_512_0 : S1024x1024.Slices ![512, 0] S512x1024
  shapeCasts_S1024_S1x1024 : S1024.ShapeCasts S1x1024
  shapeCasts_S1_S1x1 : S1.ShapeCasts S1x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S50000x512_S200000x1_S200000x512_1_0_n_n_0_1_1512_wf : GatherDims.WF S50000x512 S200000x1 S200000x512 [1] [0] [] [0] [] 1 ![1, 512]
  dot_S2000x512_S512x1024_S2000x1024_1_0_0_1_n_n_wf : DotDims.WF S2000x512 S512x1024 S2000x1024 [1] [0] [0] [1] [] []
  dot_S2000x1024_S1024x1_S2000x1_1_0_0_1_n_n_wf : DotDims.WF S2000x1024 S1024x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .bf16 = 32 ∨ (Rect.block (s := S200000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S200000x512.size a
  hwx0_1 : ∀ i : grid0.Coords, EltTy.bits .bf16 = 32 ∨ (Rect.block (s := S200000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .bf16 = 32 ∨ (Rect.block (s := S1024x1) S1024x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S200000x1.size a
  hwx0_7 : ∀ i : grid0.Coords, EltTy.bits .f32 = 32 ∨ (Rect.block (s := S200000x1) S2000x1.size (cc0_transform_7 i) (hinb0_7 i)).WholeWords (EltTy.packing .f32)

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def dot_S2000x1024_S1024x1_S2000x1_1_0_0_1_n_n : DotDims S2000x1024 S1024x1 S2000x1 where
  lhsContracting := [1]
  rhsContracting := [0]
  lhsNonContracting := [0]
  rhsNonContracting := [1]
  lhsBatch := []
  rhsBatch := []
  wf := dot_S2000x1024_S1024x1_S2000x1_1_0_0_1_n_n_wf

abbrev win0_0 : Pipeline.Window sig grid0 :=
  Pipeline.Window.ofSpec (Memref.whole main_v14) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S200000x1 : Shape := ⟨2, ![200000, 1]⟩
abbrev S200000x512 : Shape := ⟨2, ![200000, 512]⟩
abbrev S200000x1024 : Shape := ⟨2, ![200000, 1024]⟩
abbrev S1x1024 : Shape := ⟨2, ![1, 1024]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S200000, .i32⟩
  | .hbm, ⟨2, _⟩ => ⟨S200000, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S_, .i32⟩
  | .hbm, ⟨8, _⟩ => ⟨S200000, .i32⟩
  | .hbm, ⟨9, _⟩ => ⟨S200000, .i1⟩
  | .hbm, ⟨10, _⟩ => ⟨S_, .i32⟩
  | .hbm, ⟨11, _⟩ => ⟨S200000, .i32⟩
  | .hbm, ⟨12, _⟩ => ⟨S200000, .i32⟩
  | .hbm, ⟨13, _⟩ => ⟨S200000, .i32⟩
  | .hbm, ⟨14, _⟩ => ⟨S200000x1, .i32⟩
  | .hbm, ⟨15, _⟩ => ⟨S200000x512, .f32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x512, .f32⟩
  | .hbm, ⟨25, _⟩ => ⟨S200000x1024, .f32⟩
  | .hbm, ⟨26, _⟩ => ⟨S200000x1024, .f32⟩
  | .hbm, ⟨27, _⟩ => ⟨S1x1024, .f32⟩
  | .hbm, ⟨28, _⟩ => ⟨S200000x1024, .f32⟩
  | .hbm, ⟨29, _⟩ => ⟨S200000x1024, .f32⟩
  | .hbm, ⟨30, _⟩ => ⟨S_, .f32⟩
  | .hbm, ⟨31, _⟩ => ⟨S200000x1024, .f32⟩
  | .hbm, ⟨32, _⟩ => ⟨S200000x1024, .f32⟩
  | .hbm, ⟨33, _⟩ => ⟨S200000x1, .f32⟩
  | .hbm, ⟨34, _⟩ => ⟨S1x1, .f32⟩
  | .hbm, ⟨35, _⟩ => ⟨S200000x1, .f32⟩
  | .hbm, ⟨36, _⟩ => ⟨S200000x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x512_S200000x512_S200000x1024_d1 : Shape.Concatenates [S200000x512, S200000x512] S200000x1024 1
  bcast_S1024_S1x1024_1 : S1024.BroadcastsInDim S1x1024 (![1] : Fin 1 → Fin S1x1024.rank)
  bcast_S1x1024_S200000x1024_0_1 : S1x1024.BroadcastsInDim S200000x1024 (![0, 1] : Fin 2 → Fin S200000x1024.rank)
  bcast_S_S200000x1024 : S_.BroadcastsInDim S200000x1024 (![] : Fin 0 → Fin S200000x1024.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S50000x512_S200000x1_S200000x512_1_0_n_n_0_1_1512_wf : GatherDims.WF S50000x512 S200000x1 S200000x512 [1] [0] [] [0] [] 1 ![1, 512]
  dot_S200000x1024_S1024x1024_S200000x1024_1_0_0_1_n_n_wf : DotDims.WF S200000x1024 S1024x1024 S200000x1024 [1] [0] [0] [1] [] []
  dot_S200000x1024_S1024x1_S200000x1_1_0_0_1_n_n_wf : DotDims.WF S200000x1024 S1024x1 S200000x1 [1] [0] [0] [1] [] []

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S200000x1024_S1024x1024_S200000x1024_1_0_0_1_n_n : DotDims S200000x1024 S1024x1024 S200000x1024 where
  lhsContracting := [1]
  rhsContracting := [0]
  lhsNonContracting := [0]
  rhsNonContracting := [1]
  lhsBatch := []
  rhsBatch := []
  wf := dot_S200000x1024_S1024x1024_S200000x1024_1_0_0_1_n_n_wf
def dot_S200000x1024_S1024x1_S200000x1_1_0_0_1_n_n : DotDims S200000x1024 S1024x1 S200000x1 where
  lhsContracting := [1]
  rhsContracting := [0]
  lhsNonContracting := [0]
  rhsNonContracting := [1]
  lhsBatch := []
  rhsBatch := []
  wf := dot_S200000x1024_S1024x1_S200000x1_1_0_0_1_n_n_wf

class Facts : Prop extends Facts₀ where

variable [Facts]
-- ==== Proof.Spec.lean ====
/-
  The edge scorer as ONE function of its arrays, index by index, over the extended reals.

  An edge `e` has two gathered feature rows, `xs[e, ·]` (its source node's) and `xd[e, ·]` (its destination node's), 512
  entries each. The first layer multiplies their concatenation by a [1024, 1024] weight, adds a bias and clamps at zero;
  the second layer is a dot product with a [1024, 1] weight plus a bias:

      hiddenAct e k = max (Σ_j xs[e, j] · W1[j, k]  +  Σ_j xd[e, j] · W1[512 + j, k]  +  b1[k]) 0        (j < 512)
      score  e   = Σ_k hiddenAct e k · W2[k, 0]  +  b2[0]                                                 (k < 1024)

  The product of the concatenated row with the weight is written already split into the weight's upper and lower halves
  (`sum_halves`: a sum over 1024 rows is the sum over the first 512 plus the sum over the last 512, in any commutative
  monoid, so no finiteness is needed).  `rowScore` is the same formula with the two halves of the weight given as two
  separate [512, 1024] matrices and the biases as one-row matrices; `tiled` applies it to every row of two [200000, 512]
  arrays; `tiled_eq_score` says that at the two row slices of one weight and at the biases cast to one row, that is
  `score`.
-/
import Idealize.ShloMosaic.PureOps.Ideal
import Idealize.ShloMosaic.Lib.ValueIdx
import Idealize.ShloMosaic.Lib.ValueLayout

noncomputable section

namespace Cert.EdgeScore

open Idealize.ShloMosaic Idealize.ShloMosaic.ValueIdx

/-- Row `j` of the weight's upper half: the rows that meet the source node's features. -/
abbrev upper (j : Fin 512) : Fin 1024 := ⟨j.val, by omega⟩
/-- Row `512 + j`, in the weight's lower half: the rows that meet the destination node's features. -/
abbrev lower (j : Fin 512) : Fin 1024 := ⟨512 + j.val, by omega⟩

/-- A sum over 1024 rows is the sum over the upper 512 plus the sum over the lower 512. -/
theorem sum_halves {M : Type*} [AddCommMonoid M] (f : Fin 1024 → M) :
    ∑ j : Fin 1024, f j = ∑ j : Fin 512, f (upper j) + ∑ j : Fin 512, f (lower j) :=
  Fin.sum_univ_add (a := 512) (b := 512) f

/-- One edge's score from its two feature rows `s` and `d`, the two halves `A`, `B` of the first weight as separate
    matrices, the first bias as a one-row matrix `c1`, the second weight `w` and the second bias as a [1, 1] matrix `c2`;
    `q` is the (only) output column. -/
def rowScore (s d : Fin 512 → EReal) (A B : (⟨2, ![512, 1024]⟩ : Shape).Idx → EReal)
    (c1 : (⟨2, ![1, 1024]⟩ : Shape).Idx → EReal) (w : (⟨2, ![1024, 1]⟩ : Shape).Idx → EReal)
    (c2 : (⟨2, ![1, 1]⟩ : Shape).Idx → EReal) (q : Fin 1) : EReal :=
  (∑ k : Fin 1024, max ((∑ j : Fin 512, s j * A (ix2 j k) + ∑ j : Fin 512, d j * B (ix2 j k)) + c1 (ix2 (0 : Fin 1) k)) 0
      * w (ix2 k q))
    + c2 (ix2 (0 : Fin 1) (0 : Fin 1))

/-- `rowScore` on every row of two [200000, 512] arrays: what a kernel tiled over the edges computes. -/
def tiled (X0 X1 : (⟨2, ![200000, 512]⟩ : Shape).Idx → EReal) (A B : (⟨2, ![512, 1024]⟩ : Shape).Idx → EReal)
    (c1 : (⟨2, ![1, 1024]⟩ : Shape).Idx → EReal) (w : (⟨2, ![1024, 1]⟩ : Shape).Idx → EReal)
    (c2 : (⟨2, ![1, 1]⟩ : Shape).Idx → EReal) : (⟨2, ![200000, 1]⟩ : Shape).Idx → EReal :=
  fun i => rowScore (fun j => X0 (ix2 (⟨(i 0).val, (i 0).isLt⟩ : Fin 200000) j)) (fun j => X1 (ix2 (⟨(i 0).val, (i 0).isLt⟩ : Fin 200000) j))
    A B c1 w c2 ⟨(i 1).val, (i 1).isLt⟩

/-- Hidden unit `k` of edge `e`. -/
def hiddenAct (xs xd : (⟨2, ![200000, 512]⟩ : Shape).Idx → EReal) (W1 : (⟨2, ![1024, 1024]⟩ : Shape).Idx → EReal)
    (b1 : (⟨1, ![1024]⟩ : Shape).Idx → EReal) (e : Fin 200000) (k : Fin 1024) : EReal :=
  max ((∑ j : Fin 512, xs (ix2 e j) * W1 (ix2 (upper j) k) + ∑ j : Fin 512, xd (ix2 e j) * W1 (ix2 (lower j) k)) + b1 (ix1 k)) 0

/-- THE RESULT: the score of every edge, as a [200000, 1] array. -/
def score (xs xd : (⟨2, ![200000, 512]⟩ : Shape).Idx → EReal) (W1 : (⟨2, ![1024, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) : (⟨2, ![200000, 1]⟩ : Shape).Idx → EReal :=
  fun i => (∑ k : Fin 1024, hiddenAct xs xd W1 b1 ⟨(i 0).val, (i 0).isLt⟩ k * W2 (ix2 k (⟨(i 1).val, (i 1).isLt⟩ : Fin 1)))
    + b2 (ix1 (0 : Fin 1))

/-- At the two row slices of one weight (rows 0–511 and rows 512–1023) and at the biases cast to one-row matrices, the
    tiled arrangement is `score`: a slice read at row `j` is the weight at row `j`, respectively `512 + j`, and a bias cast
    to one row reads the bias. -/
theorem tiled_eq_score (xs xd : (⟨2, ![200000, 512]⟩ : Shape).Idx → EReal) (W1 : (⟨2, ![1024, 1024]⟩ : Shape).Idx → EReal)
    (b1 : (⟨1, ![1024]⟩ : Shape).Idx → EReal) (W2 : (⟨2, ![1024, 1]⟩ : Shape).Idx → EReal) (b2 : (⟨1, ![1]⟩ : Shape).Idx → EReal)
    (h0 : (⟨2, ![1024, 1024]⟩ : Shape).Slices ![0, 0] ⟨2, ![512, 1024]⟩)
    (h1 : (⟨2, ![1024, 1024]⟩ : Shape).Slices ![512, 0] ⟨2, ![512, 1024]⟩)
    (hb1 : (⟨1, ![1024]⟩ : Shape).ShapeCasts ⟨2, ![1, 1024]⟩) (hb2 : (⟨1, ![1]⟩ : Shape).ShapeCasts ⟨2, ![1, 1]⟩) :
    tiled xs xd (extractStridedSlice ⟨2, ![512, 1024]⟩ ![0, 0] W1 h0) (extractStridedSlice ⟨2, ![512, 1024]⟩ ![512, 0] W1 h1)
        (shapeCast ⟨2, ![1, 1024]⟩ b1 hb1) W2 (shapeCast ⟨2, ![1, 1]⟩ b2 hb2)
      = score xs xd W1 b1 W2 b2 := by
  have eA : ∀ (j : Fin 512) (k : Fin 1024),
      extractStridedSlice ⟨2, ![512, 1024]⟩ ![0, 0] W1 h0 (ix2 j k) = W1 (ix2 (upper j) k) :=
    fun j k => slice2_axis0_apply 0 W1 h0 j k (upper j) (Nat.zero_add _).symm
  have eB : ∀ (j : Fin 512) (k : Fin 1024),
      extractStridedSlice ⟨2, ![512, 1024]⟩ ![512, 0] W1 h1 (ix2 j k) = W1 (ix2 (lower j) k) :=
    fun j k => slice2_axis0_apply 512 W1 h1 j k (lower j) rfl
  have e1 : ∀ k : Fin 1024, shapeCast ⟨2, ![1, 1024]⟩ b1 hb1 (ix2 (0 : Fin 1) k) = b1 (ix1 k) :=
    fun k => shapeCast_a_1a_apply b1 hb1 0 k
  have e2 : shapeCast ⟨2, ![1, 1]⟩ b2 hb2 (ix2 (0 : Fin 1) (0 : Fin 1)) = b2 (ix1 (0 : Fin 1)) :=
    shapeCast_a_1a_apply b2 hb2 0 0
  funext i
  unfold tiled rowScore score hiddenAct
  simp only [eA, eB, e1, e2]

end Cert.EdgeScore

end
-- ==== Proof.Body.lean ====
/-
  What the kernel's body stores, read at one entry.

  The body loads a [2000, 512] block of source rows `x0`, the matching block of destination rows `x1`, the two halves
  `x2`, `x3` of the first weight, the first bias as a row `x4`, the second weight `x5` and the second bias `x6`, and stores
  one [2000, 1] column.  Over the extended reals a matrix product into a zero accumulator is the plain sum of products
  over the contracted axis (`mm1_apply`, `mm2_apply`), a change of float format is the identity, the row bias broadcast
  over the block reads the bias's one row, and the clamp is `max · 0`; so the entry at row `p` is `rowScore` of row `p` of
  the two blocks (`pay_apply`).
-/
import proofs.«136014_j23252952940858_1_alg».proof.Proof.Gen.KernelIdeal.Skeleton
import proofs.«136014_j23252952940858_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.EdgeScore

/-! ## The first layer's two products: [2000, 512] × [512, 1024] -/

theorem lhs_mm1_0 (i : S2000x1024.Idx) (q : dot_S2000x512_S512x1024_S2000x1024_1_0_0_1_n_n.contr.Idx) :
    (dot_S2000x512_S512x1024_S2000x1024_1_0_0_1_n_n.lhsIdx i q 0).val = (i 0).val := by
  unfold DotDims.lhsIdx
  rw [dif_neg (show ¬(0 : Fin S2000x512.rank) ∈ dot_S2000x512_S512x1024_S2000x1024_1_0_0_1_n_n.lhsBatch by decide), dif_pos (show (0 : Fin S2000x512.rank) ∈ dot_S2000x512_S512x1024_S2000x1024_1_0_0_1_n_n.lhsNonContracting by decide)]
  rfl
theorem lhs_mm1_1 (i : S2000x1024.Idx) (q : dot_S2000x512_S512x1024_S2000x1024_1_0_0_1_n_n.contr.Idx) :
    (dot_S2000x512_S512x1024_S2000x1024_1_0_0_1_n_n.lhsIdx i q 1).val = (q ⟨0, by decide⟩).val :=
  dot_S2000x512_S512x1024_S2000x1024_1_0_0_1_n_n.lhsIdx_val_of_single rfl i q
theorem rhs_mm1_0 (i : S2000x1024.Idx) (q : dot_S2000x512_S512x1024_S2000x1024_1_0_0_1_n_n.contr.Idx) :
    (dot_S2000x512_S512x1024_S2000x1024_1_0_0_1_n_n.rhsIdx i q 0).val = (q ⟨0, by decide⟩).val :=
  dot_S2000x512_S512x1024_S2000x1024_1_0_0_1_n_n.rhsIdx_val_of_single rfl i q
theorem rhs_mm1_1 (i : S2000x1024.Idx) (q : dot_S2000x512_S512x1024_S2000x1024_1_0_0_1_n_n.contr.Idx) :
    (dot_S2000x512_S512x1024_S2000x1024_1_0_0_1_n_n.rhsIdx i q 1).val = (i 1).val := by
  unfold DotDims.rhsIdx
  rw [dif_neg (show ¬(1 : Fin S512x1024.rank) ∈ dot_S2000x512_S512x1024_S2000x1024_1_0_0_1_n_n.rhsBatch by decide), dif_pos (show (1 : Fin S512x1024.rank) ∈ dot_S2000x512_S512x1024_S2000x1024_1_0_0_1_n_n.rhsNonContracting by decide)]
  rfl

/-- A block of rows times half of the first weight, into zero: entry `(p, k)` is the sum over the 512 features. -/
theorem mm1_apply (l : FVec Ideal S2000x512 .bf16) (r : FVec Ideal S512x1024 .bf16) (p : Fin 2000) (k : Fin 1024) :
    matmul dot_S2000x512_S512x1024_S2000x1024_1_0_0_1_n_n none l r (constant S2000x1024 .f32 0x00000000#32) (ix2 p k)
      = ∑ j : Fin 512, l (ix2 p j) * r (ix2 j k) := by
  simp only [matmul]
  rw [Ideal.matmul_constant_zero_apply, ← Equiv.sum_comp (ValueIdx.contrEquiv1 dot_S2000x512_S512x1024_S2000x1024_1_0_0_1_n_n 512 rfl rfl).symm]
  refine Finset.sum_congr rfl fun j _ => ?_
  have hk := ValueIdx.contrEquiv1_symm_val dot_S2000x512_S512x1024_S2000x1024_1_0_0_1_n_n 512 rfl rfl j
  have el : dot_S2000x512_S512x1024_S2000x1024_1_0_0_1_n_n.lhsIdx (ix2 p k) ((ValueIdx.contrEquiv1 dot_S2000x512_S512x1024_S2000x1024_1_0_0_1_n_n 512 rfl rfl).symm j) = ix2 p j := funext fun a => Fin.ext (by
    match a with
    | ⟨0, _⟩ => exact lhs_mm1_0 _ _
    | ⟨1, _⟩ => exact (lhs_mm1_1 _ _).trans hk)
  have er : dot_S2000x512_S512x1024_S2000x1024_1_0_0_1_n_n.rhsIdx (ix2 p k) ((ValueIdx.contrEquiv1 dot_S2000x512_S512x1024_S2000x1024_1_0_0_1_n_n 512 rfl rfl).symm j) = ix2 j k := funext fun a => Fin.ext (by
    match a with
    | ⟨0, _⟩ => exact (rhs_mm1_0 _ _).trans hk
    | ⟨1, _⟩ => exact rhs_mm1_1 _ _)
  rw [el, er]

/-! ## The second layer's product: [2000, 1024] × [1024, 1] -/

theorem lhs_mm2_0 (i : S2000x1.Idx) (q : dot_S2000x1024_S1024x1_S2000x1_1_0_0_1_n_n.contr.Idx) :
    (dot_S2000x1024_S1024x1_S2000x1_1_0_0_1_n_n.lhsIdx i q 0).val = (i 0).val := by
  unfold DotDims.lhsIdx
  rw [dif_neg (show ¬(0 : Fin S2000x1024.rank) ∈ dot_S2000x1024_S1024x1_S2000x1_1_0_0_1_n_n.lhsBatch by decide), dif_pos (show (0 : Fin S2000x1024.rank) ∈ dot_S2000x1024_S1024x1_S2000x1_1_0_0_1_n_n.lhsNonContracting by decide)]
  rfl
theorem lhs_mm2_1 (i : S2000x1.Idx) (q : dot_S2000x1024_S1024x1_S2000x1_1_0_0_1_n_n.contr.Idx) :
    (dot_S2000x1024_S1024x1_S2000x1_1_0_0_1_n_n.lhsIdx i q 1).val = (q ⟨0, by decide⟩).val :=
  dot_S2000x1024_S1024x1_S2000x1_1_0_0_1_n_n.lhsIdx_val_of_single rfl i q
theorem rhs_mm2_0 (i : S2000x1.Idx) (q : dot_S2000x1024_S1024x1_S2000x1_1_0_0_1_n_n.contr.Idx) :
    (dot_S2000x1024_S1024x1_S2000x1_1_0_0_1_n_n.rhsIdx i q 0).val = (q ⟨0, by decide⟩).val :=
  dot_S2000x1024_S1024x1_S2000x1_1_0_0_1_n_n.rhsIdx_val_of_single rfl i q
theorem rhs_mm2_1 (i : S2000x1.Idx) (q : dot_S2000x1024_S1024x1_S2000x1_1_0_0_1_n_n.contr.Idx) :
    (dot_S2000x1024_S1024x1_S2000x1_1_0_0_1_n_n.rhsIdx i q 1).val = (i 1).val := by
  unfold DotDims.rhsIdx
  rw [dif_neg (show ¬(1 : Fin S1024x1.rank) ∈ dot_S2000x1024_S1024x1_S2000x1_1_0_0_1_n_n.rhsBatch by decide), dif_pos (show (1 : Fin S1024x1.rank) ∈ dot_S2000x1024_S1024x1_S2000x1_1_0_0_1_n_n.rhsNonContracting by decide)]
  rfl

/-- The hidden block times the second weight, into zero: entry `(p, q)` is the sum over the 1024 hidden units. -/
theorem mm2_apply (l : FVec Ideal S2000x1024 .bf16) (r : FVec Ideal S1024x1 .bf16) (p : Fin 2000) (q : Fin 1) :
    matmul dot_S2000x1024_S1024x1_S2000x1_1_0_0_1_n_n none l r (constant S2000x1 .f32 0x00000000#32) (ix2 p q)
      = ∑ k : Fin 1024, l (ix2 p k) * r (ix2 k q) := by
  simp only [matmul]
  rw [Ideal.matmul_constant_zero_apply, ← Equiv.sum_comp (ValueIdx.contrEquiv1 dot_S2000x1024_S1024x1_S2000x1_1_0_0_1_n_n 1024 rfl rfl).symm]
  refine Finset.sum_congr rfl fun k _ => ?_
  have hk := ValueIdx.contrEquiv1_symm_val dot_S2000x1024_S1024x1_S2000x1_1_0_0_1_n_n 1024 rfl rfl k
  have el : dot_S2000x1024_S1024x1_S2000x1_1_0_0_1_n_n.lhsIdx (ix2 p q) ((ValueIdx.contrEquiv1 dot_S2000x1024_S1024x1_S2000x1_1_0_0_1_n_n 1024 rfl rfl).symm k) = ix2 p k := funext fun a => Fin.ext (by
    match a with
    | ⟨0, _⟩ => exact lhs_mm2_0 _ _
    | ⟨1, _⟩ => exact (lhs_mm2_1 _ _).trans hk)
  have er : dot_S2000x1024_S1024x1_S2000x1_1_0_0_1_n_n.rhsIdx (ix2 p q) ((ValueIdx.contrEquiv1 dot_S2000x1024_S1024x1_S2000x1_1_0_0_1_n_n 1024 rfl rfl).symm k) = ix2 k q := funext fun a => Fin.ext (by
    match a with
    | ⟨0, _⟩ => exact (rhs_mm2_0 _ _).trans hk
    | ⟨1, _⟩ => exact rhs_mm2_1 _ _)
  rw [el, er]

/-! ## The stored column at an entry -/

/-- The body's one store, at row `p` of the block: the score of the edge whose feature rows are row `p` of the two
    loaded blocks. -/
theorem pay_apply (x0 x1 : FVec Ideal S2000x512 .bf16) (x2 x3 : FVec Ideal S512x1024 .bf16) (x4 : FVec Ideal S1x1024 .f32)
    (x5 : FVec Ideal S1024x1 .bf16) (x6 : FVec Ideal S1x1 .f32) (p : Fin 2000) (q : Fin 1) :
    k0_pay1 (F := Ideal) x0 x2 x1 x3 x4 x5 x6 (ix2 p q)
      = rowScore (fun j => x0 (ix2 p j)) (fun j => x1 (ix2 p j)) x2 x3 x4 x5 x6 q := by
  obtain rfl : q = 0 := Subsingleton.elim _ _
  unfold k0_pay1 rowScore
  dsimp only
  simp only [shapeCast_self]
  rw [addf_apply, mm2_apply]
  congr 1
  · refine Finset.sum_congr rfl fun k _ => congrArg (· * x5 (ix2 k 0)) ?_
    rw [truncf_apply, maximumf_apply, addf_apply, addf_apply, mm1_apply, mm1_apply, broadcastTo_1b_ab_apply, broadcast_apply,
      Ideal.ofBits_def, Ideal.ofBits_zero_f32]
  · exact broadcastTo_1b_ab_apply x6 _ p 0

end Cert.KernelIdeal.Body

end
-- ==== Proof.KernelValue.lean ====
/-
  The kernel's result array after the run, as one function of the arrays it was given.

  The grid has 100 points; point `t` stages rows `2000 t … 2000 t + 1999` of the two gathered feature arrays, the whole of
  each parameter array, and writes rows `2000 t … 2000 t + 1999` of the [200000, 1] result.  So what point `t` writes back
  is block `t` of `tiled` of the staged arrays (`flushed_eq`: the stored column at row `p` is `rowScore` of row `p` of the
  two blocks, and row `p` of block `t` is row `2000 t + p` of the array), the 100 blocks tile the result (row `r` lies in
  block `r / 2000`), hence the result array is `tiled` of the staged arrays (`final`).  The staged arrays are what the
  host operations before the call leave: the two gathers (kept as they are, `srcRows` and `dstRows`), the two row slices
  of the first weight, the biases cast to one row, each up to a change of float format, which is the identity over the
  extended reals.  With `tiled_eq_score` the result is `score` of the gathered rows and the parameters (`run`).
-/
import proofs.«136014_j23252952940858_1_alg».proof.Proof.Gen.KernelIdeal.Value
import proofs.«136014_j23252952940858_1_alg».proof.Proof.Body
import proofs.«136014_j23252952940858_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body Cert.EdgeScore
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The staged arrays and their blocks, at their literal types -/

abbrev arrXs (c : Dev nD) : FVec Ideal S200000x512 .bf16 := V m c main_v14
abbrev arrXd (c : Dev nD) : FVec Ideal S200000x512 .bf16 := V m c main_v15
abbrev arrWa (c : Dev nD) : FVec Ideal S512x1024 .bf16 := V m c main_v17
abbrev arrWb (c : Dev nD) : FVec Ideal S512x1024 .bf16 := V m c main_v19
abbrev arrB1 (c : Dev nD) : FVec Ideal S1x1024 .f32 := V m c main_v21
abbrev arrW2 (c : Dev nD) : FVec Ideal S1024x1 .bf16 := V m c main_v20
abbrev arrB2 (c : Dev nD) : FVec Ideal S1x1 .f32 := V m c main_v22

abbrev blkXs (c : Dev nD) (t : Fin cfg0.N) : FVec Ideal S2000x512 .bf16 := iblk m c 0 t
abbrev blkXd (c : Dev nD) (t : Fin cfg0.N) : FVec Ideal S2000x512 .bf16 := iblk m c 1 t
abbrev blkWa (c : Dev nD) (t : Fin cfg0.N) : FVec Ideal S512x1024 .bf16 := iblk m c 2 t
abbrev blkWb (c : Dev nD) (t : Fin cfg0.N) : FVec Ideal S512x1024 .bf16 := iblk m c 3 t
abbrev blkB1 (c : Dev nD) (t : Fin cfg0.N) : FVec Ideal S1x1024 .f32 := iblk m c 4 t
abbrev blkW2 (c : Dev nD) (t : Fin cfg0.N) : FVec Ideal S1024x1 .bf16 := iblk m c 5 t
abbrev blkB2 (c : Dev nD) (t : Fin cfg0.N) : FVec Ideal S1x1 .f32 := iblk m c 6 t

/-- The index maps over the grid: the two feature windows and the result window are at block row `t`, block column 0;
    every parameter window is at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the source block at point `t` is row `2000 t + p` of the source array. -/
theorem blkXs_apply (c : Dev nD) (t : Fin cfg0.N) (p : Fin 2000) (j : Fin 512) (e : Fin 200000) (he : e.val = t.val * 2000 + p.val) :
    blkXs m c t (ix2 p j) = arrXs m c (ix2 e j) := by
  obtain ⟨h0, h1, -⟩ := idx_facts t
  show V m c main_v14 (((cfg0.win 0).blk t).view.emb (ix2 p j)) = V m c main_v14 (ix2 e j)
  refine congrArg (V m c main_v14) (funext fun a => Fin.ext ?_)
  match a with
  | ⟨0, _⟩ => show win0_0.index t (0 : Fin 2) * 2000 + 1 * p.val = e.val; rw [h0, he]; omega
  | ⟨1, _⟩ => show win0_0.index t (1 : Fin 2) * 512 + 1 * j.val = j.val; rw [h1]; omega

/-- Row `p` of the destination block at point `t` is row `2000 t + p` of the destination array. -/
theorem blkXd_apply (c : Dev nD) (t : Fin cfg0.N) (p : Fin 2000) (j : Fin 512) (e : Fin 200000) (he : e.val = t.val * 2000 + p.val) :
    blkXd m c t (ix2 p j) = arrXd m c (ix2 e j) := by
  obtain ⟨-, -, h0, h1, -⟩ := idx_facts t
  show V m c main_v15 (((cfg0.win 1).blk t).view.emb (ix2 p j)) = V m c main_v15 (ix2 e j)
  refine congrArg (V m c main_v15) (funext fun a => Fin.ext ?_)
  match a with
  | ⟨0, _⟩ => show win0_1.index t (0 : Fin 2) * 2000 + 1 * p.val = e.val; rw [h0, he]; omega
  | ⟨1, _⟩ => show win0_1.index t (1 : Fin 2) * 512 + 1 * j.val = j.val; rw [h1]; omega

/-- Each parameter window's one block is its whole array. -/
theorem blkWa_eq (c : Dev nD) (t : Fin cfg0.N) : blkWa m c t = arrWa m c := by
  obtain ⟨-, -, -, -, h0, h1, -⟩ := idx_facts t
  funext y
  show V m c main_v17 (((cfg0.win 2).blk t).view.emb y) = V m c main_v17 y
  refine congrArg (V m c main_v17) (funext fun a => Fin.ext ?_)
  match a with
  | ⟨0, _⟩ => show win0_2.index t (0 : Fin 2) * 512 + 1 * (y 0).val = (y 0).val; rw [h0]; omega
  | ⟨1, _⟩ => show win0_2.index t (1 : Fin 2) * 1024 + 1 * (y 1).val = (y 1).val; rw [h1]; omega
theorem blkWb_eq (c : Dev nD) (t : Fin cfg0.N) : blkWb m c t = arrWb m c := by
  obtain ⟨-, -, -, -, -, -, h0, h1, -⟩ := idx_facts t
  funext y
  show V m c main_v19 (((cfg0.win 3).blk t).view.emb y) = V m c main_v19 y
  refine congrArg (V m c main_v19) (funext fun a => Fin.ext ?_)
  match a with
  | ⟨0, _⟩ => show win0_3.index t (0 : Fin 2) * 512 + 1 * (y 0).val = (y 0).val; rw [h0]; omega
  | ⟨1, _⟩ => show win0_3.index t (1 : Fin 2) * 1024 + 1 * (y 1).val = (y 1).val; rw [h1]; omega
theorem blkB1_eq (c : Dev nD) (t : Fin cfg0.N) : blkB1 m c t = arrB1 m c := by
  obtain ⟨-, -, -, -, -, -, -, -, h0, h1, -⟩ := idx_facts t
  funext y
  show V m c main_v21 (((cfg0.win 4).blk t).view.emb y) = V m c main_v21 y
  refine congrArg (V m c main_v21) (funext fun a => Fin.ext ?_)
  match a with
  | ⟨0, _⟩ => show win0_4.index t (0 : Fin 2) * 1 + 1 * (y 0).val = (y 0).val; rw [h0]; omega
  | ⟨1, _⟩ => show win0_4.index t (1 : Fin 2) * 1024 + 1 * (y 1).val = (y 1).val; rw [h1]; omega
theorem blkW2_eq (c : Dev nD) (t : Fin cfg0.N) : blkW2 m c t = arrW2 m c := by
  obtain ⟨-, -, -, -, -, -, -, -, -, -, h0, h1, -⟩ := idx_facts t
  funext y
  show V m c main_v20 (((cfg0.win 5).blk t).view.emb y) = V m c main_v20 y
  refine congrArg (V m c main_v20) (funext fun a => Fin.ext ?_)
  match a with
  | ⟨0, _⟩ => show win0_5.index t (0 : Fin 2) * 1024 + 1 * (y 0).val = (y 0).val; rw [h0]; omega
  | ⟨1, _⟩ => show win0_5.index t (1 : Fin 2) * 1 + 1 * (y 1).val = (y 1).val; rw [h1]; omega
theorem blkB2_eq (c : Dev nD) (t : Fin cfg0.N) : blkB2 m c t = arrB2 m c := by
  obtain ⟨-, -, -, -, -, -, -, -, -, -, -, -, h0, h1, -⟩ := idx_facts t
  funext y
  show V m c main_v22 (((cfg0.win 6).blk t).view.emb y) = V m c main_v22 y
  refine congrArg (V m c main_v22) (funext fun a => Fin.ext ?_)
  match a with
  | ⟨0, _⟩ => show win0_6.index t (0 : Fin 2) * 1 + 1 * (y 0).val = (y 0).val; rw [h0]; omega
  | ⟨1, _⟩ => show win0_6.index t (1 : Fin 2) * 1 + 1 * (y 1).val = (y 1).val; rw [h1]; omega

/-! ## What a point writes back, the cover, the final array -/

/-- The result array as a function of the staged arrays. -/
abbrev result (c : Dev nD) : S200000x1.Idx → EReal :=
  tiled (arrXs m c) (arrXd m c) (arrWa m c) (arrWb m c) (arrB1 m c) (arrW2 m c) (arrB2 m c)

/-- WHAT POINT `t` WRITES BACK is block `t` of `result`. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S2000x512) hz, View.ld_unit_zero (S := S512x1024) hz, View.ld_unit_zero (S := S1x1024) hz,
    View.ld_unit_zero (S := S1024x1) hz, View.ld_unit_zero (S := S1x1) hz]
  funext y
  obtain ⟨p, q, rfl⟩ : ∃ (p : Fin 2000) (q : Fin 1), y = ix2 p q := ⟨y 0, y 1, eq_ix2 y⟩
  obtain ⟨-, -, -, -, -, -, -, -, -, -, -, -, -, -, h0, h1⟩ := idx_facts t
  show k0_pay1 (F := Ideal) (blkXs m c t) (blkWa m c t) (blkXd m c t) (blkWb m c t) (blkB1 m c t) (blkW2 m c t) (blkB2 m c t) (ix2 p q)
    = result m c (((cfg0.win 7).blk t).view.emb (ix2 p q))
  refine (pay_apply (blkXs m c t) (blkXd m c t) (blkWa m c t) (blkWb m c t) (blkB1 m c t) (blkW2 m c t) (blkB2 m c t) p q).trans ?_
  rw [blkWa_eq, blkWb_eq, blkB1_eq, blkW2_eq, blkB2_eq]
  have he : ((((cfg0.win 7).blk t).view.emb (ix2 p q)) 0).val = t.val * 2000 + p.val := by
    show win0_7.index t (0 : Fin 2) * 2000 + 1 * p.val = _
    rw [h0]; omega
  have hs : ∀ j : Fin 512, blkXs m c t (ix2 p j)
      = arrXs m c (ix2 (⟨((((cfg0.win 7).blk t).view.emb (ix2 p q)) 0).val, ((((cfg0.win 7).blk t).view.emb (ix2 p q)) 0).isLt⟩ : Fin 200000) j) :=
    fun j => blkXs_apply m c t p j _ he
  have hd : ∀ j : Fin 512, blkXd m c t (ix2 p j)
      = arrXd m c (ix2 (⟨((((cfg0.win 7).blk t).view.emb (ix2 p q)) 0).val, ((((cfg0.win 7).blk t).view.emb (ix2 p q)) 0).isLt⟩ : Fin 200000) j) :=
    fun j => blkXd_apply m c t p j _ he
  show rowScore _ _ _ _ _ _ _ _ = rowScore _ _ _ _ _ _ _ _
  simp only [hs, hd]
  exact congrArg (rowScore _ _ _ _ _ _ _) (Subsingleton.elim _ _)

/-- An index of the result lies in point `t`'s block iff each coordinate lies in the block's range on its axis. -/
theorem mem_blk (t : Fin cfg0.N) (i : S200000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v23).slice (win0_7.rect t)).set ↔ _
  rw [View.set_slice_whole, Rect.mem_set_unit]
  exact Iff.rfl

/-- The 100 blocks of 2000 rows tile the 200000 rows: row `r` lies in block `r / 2000`. -/
theorem cover (i : S200000x1.Idx) : ∃ t : Fin cfg0.N, (cfg0.win 7).flush t = true ∧ i ∈ ((cfg0.win 7).blk t).view.set := by
  have hi0 : (i 0).val < 200000 := (i 0).isLt
  have hi1 : (i 1).val < 1 := (i 1).isLt
  have hN : cfg0.N = 100 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, h0, h1⟩ := idx_facts t
  refine ⟨t, flush0_7 t, ?_⟩
  rw [mem_blk]
  intro a
  match a with
  | ⟨0, _⟩ =>
    show win0_7.index t (0 : Fin 2) * 2000 ≤ (i 0).val ∧ (i 0).val < win0_7.index t (0 : Fin 2) * 2000 + 2000
    rw [h0, ht]; omega
  | ⟨1, _⟩ =>
    show win0_7.index t (1 : Fin 2) * 1 ≤ (i 1).val ∧ (i 1).val < win0_7.index t (1 : Fin 2) * 1 + 1
    rw [h1]; omega

/-- THE RESULT ARRAY after the run is `result`: `tiled` of the staged arrays. -/
theorem final (c : Dev nD) : (dats m 0 c).arrAt 7 cfg0.N = result m c :=
  (dats m 0 c).arrAt_eq_of_cover 7 (result m c) (fun t _ => flushed_eq m c t) cover

/-! ## The staged arrays, from the arguments -/

/-- The gathered rows: row `e` is the node-feature row the index `idx e` names (a negative index counted from the end, as
    jnp indexing does).  The term is the host operations' own and is never opened: both programs gather the same way. -/
def gatherRows (x : (⟨S50000x512, .f32⟩ : BufTy).Contents (Elt Ideal)) (idx : (⟨S200000, .i32⟩ : BufTy).Contents (Elt Ideal)) :
    (⟨S200000x512, .f32⟩ : BufTy).Contents (Elt Ideal) :=
  Host.gather gather_S50000x512_S200000x1_S200000x512_1_0_n_n_0_1_1512 x (broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32))) idx))

theorem arrXs_eq (c : Dev nD) : arrXs m c = gatherRows (m ((c : Thread nD τ).loc main_arg0)) (m ((c : Thread nD τ).loc main_arg1)) := by
  show (V m c main_v14 : S200000x512.Idx → EReal) = _
  dsimp only [V, hostOps0]
  after_results
  rfl
theorem arrXd_eq (c : Dev nD) : arrXd m c = gatherRows (m ((c : Thread nD τ).loc main_arg0)) (m ((c : Thread nD τ).loc main_arg2)) := by
  show (V m c main_v15 : S200000x512.Idx → EReal) = _
  dsimp only [V, hostOps0]
  after_results
  rfl
theorem arrWa_eq (c : Dev nD) : arrWa m c = extractStridedSlice S512x1024 ![0, 0] (m ((c : Thread nD τ).loc main_arg3)) slices_S1024x1024_S512x1024_0_0 := by
  show (V m c main_v17 : S512x1024.Idx → EReal) = _
  dsimp only [V, hostOps0]
  after_results
  rfl
theorem arrWb_eq (c : Dev nD) : arrWb m c = extractStridedSlice S512x1024 ![512, 0] (m ((c : Thread nD τ).loc main_arg3)) slices_S1024x1024_S512x1024_512_0 := by
  show (V m c main_v19 : S512x1024.Idx → EReal) = _
  dsimp only [V, hostOps0]
  after_results
  rfl
theorem arrB1_eq (c : Dev nD) : arrB1 m c = shapeCast S1x1024 (m ((c : Thread nD τ).loc main_arg4)) shapeCasts_S1024_S1x1024 := by
  show (V m c main_v21 : S1x1024.Idx → EReal) = _
  dsimp only [V, hostOps0]
  after_results
  rfl
theorem arrW2_eq (c : Dev nD) : arrW2 m c = m ((c : Thread nD τ).loc main_arg5) := by
  show (V m c main_v20 : S1024x1.Idx → EReal) = _
  dsimp only [V, hostOps0]
  after_results
  rfl
theorem arrB2_eq (c : Dev nD) : arrB2 m c = shapeCast S1x1 (m ((c : Thread nD τ).loc main_arg6)) shapeCasts_S1_S1x1 := by
  show (V m c main_v22 : S1x1.Idx → EReal) = _
  dsimp only [V, hostOps0]
  after_results
  rfl

/-- So the result array is `score` of the gathered rows and the parameters. -/
theorem result_eq_score (c : Dev nD) :
    result m c = score (gatherRows (m ((c : Thread nD τ).loc main_arg0)) (m ((c : Thread nD τ).loc main_arg1)))
      (gatherRows (m ((c : Thread nD τ).loc main_arg0)) (m ((c : Thread nD τ).loc main_arg2)))
      (m ((c : Thread nD τ).loc main_arg3)) (m ((c : Thread nD τ).loc main_arg4)) (m ((c : Thread nD τ).loc main_arg5)) (m ((c : Thread nD τ).loc main_arg6)) := by
  show tiled (arrXs m c) (arrXd m c) (arrWa m c) (arrWb m c) (arrB1 m c) (arrW2 m c) (arrB2 m c) = _
  rw [arrXs_eq, arrXd_eq, arrWa_eq, arrWb_eq, arrB1_eq, arrW2_eq, arrB2_eq]
  exact tiled_eq_score _ _ _ _ _ _ _ _ _ _

/-! ## The run, read -/

/-- Every weakly fair execution of the kernel's program ends with the result array at `score` of the gathered rows and
    the parameters, the arguments unchanged. -/
theorem run : θ_run defs (onTc (τ := τ) (main (F := Ideal))) ⟨m, fun _ => 0, ρ⟩ fun r => ∀ c : Dev nD,
      r.2.mem ((c : Thread nD τ).loc main_v23)
        = score (gatherRows (m ((c : Thread nD τ).loc main_arg0)) (m ((c : Thread nD τ).loc main_arg1)))
            (gatherRows (m ((c : Thread nD τ).loc main_arg0)) (m ((c : Thread nD τ).loc main_arg2)))
            (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq_score m c)), (h c).2⟩)
    (run_blocks m ρ)

end Cert.KernelIdeal.Whole

end
-- ==== Proof.RefValue.lean ====
/-
  The reference's result, read at an entry, is `score` of its gathered rows and the parameters.

  The reference concatenates the two gathered [200000, 512] arrays into one [200000, 1024] array and multiplies it by
  the whole [1024, 1024] weight.  Column `j` of the concatenation is column `j` of the first array for `j < 512`
  (`cat_upper`) and column `j - 512` of the second for `j ≥ 512` (`cat_lower`); so the sum over the 1024 columns is the
  sum over the first array's columns against the weight's upper rows plus the sum over the second array's columns
  against its lower rows (`sum_halves`).  The rest is term by term: the bias broadcast over the rows reads the bias, the
  clamp is `max · 0`, the second product is a sum over the hidden units, the second bias is broadcast to every row.
  The two gathers are never opened: they stay `val_main_v6` and `val_main_v13`.
-/
import proofs.«136014_j23252952940858_1_alg».proof.Proof.Gen.ReferenceIdeal.Read
import proofs.«136014_j23252952940858_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.EdgeScore

/-! ## The concatenated row -/

/-- A column in the left half of the concatenation is the first array's. -/
theorem cat_upper (a b : S200000x512.Idx → EReal) (e : Fin 200000) (j : Fin 512) :
    concatenate S200000x1024 1 [⟨S200000x512, a⟩, ⟨S200000x512, b⟩] concatenates_S200000x512_S200000x512_S200000x1024_d1 (ix2 e (upper j))
      = a (ix2 e j) :=
  concatenate_pair_apply_left 1 a b _ (ix2 e (upper j)) rfl (ix2 e j) (fun ax => by
    match ax with
    | ⟨0, _⟩ => rfl
    | ⟨1, _⟩ => rfl)

/-- A column in the right half is the second array's, 512 columns back. -/
theorem cat_lower (a b : S200000x512.Idx → EReal) (e : Fin 200000) (j : Fin 512) :
    concatenate S200000x1024 1 [⟨S200000x512, a⟩, ⟨S200000x512, b⟩] concatenates_S200000x512_S200000x512_S200000x1024_d1 (ix2 e (lower j))
      = b (ix2 e j) :=
  concatenate_pair_apply_right 1 a b _ (ix2 e (lower j)) rfl rfl (ix2 e j) (fun ax hax => by
    match ax with
    | ⟨0, _⟩ => rfl
    | ⟨1, _⟩ => exact absurd (Fin.ext rfl) hax) (by show j.val + 512 = 512 + j.val; omega)

/-! ## The composed index functions are the coordinates -/

theorem lidx15 (e : Fin 200000) (k j : Fin 1024) : lidx_main_v15 (ix2 e k) j = ix2 e j :=
  funext fun a => Fin.ext (by match a with | ⟨0, _⟩ => rfl | ⟨1, _⟩ => rfl)
theorem ridx15 (e : Fin 200000) (k j : Fin 1024) : ridx_main_v15 (ix2 e k) j = ix2 j k :=
  funext fun a => Fin.ext (by match a with | ⟨0, _⟩ => rfl | ⟨1, _⟩ => rfl)
theorem bidx1 (e : Fin 200000) (k : Fin 1024) : idx_main_v16 (idx_main_v17 (ix2 e k)) = ix1 k :=
  funext fun a => Fin.ext (by match a with | ⟨0, _⟩ => rfl)
theorem lidx20 (e : Fin 200000) (q : Fin 1) (k : Fin 1024) : lidx_main_v20 (ix2 e q) k = ix2 e k :=
  funext fun a => Fin.ext (by match a with | ⟨0, _⟩ => rfl | ⟨1, _⟩ => rfl)
theorem ridx20 (e : Fin 200000) (q : Fin 1) (k : Fin 1024) : ridx_main_v20 (ix2 e q) k = ix2 k q :=
  funext fun a => Fin.ext (by match a with | ⟨0, _⟩ => rfl | ⟨1, _⟩ => rfl)
theorem bidx2 (e : Fin 200000) (q : Fin 1) : idx_main_v21 (idx_main_v22 (ix2 e q)) = ix1 (0 : Fin 1) :=
  funext fun a => Fin.ext (by match a with | ⟨0, _⟩ => rfl)

/-! ## The hidden layer, then the score -/

/-- The reference's hidden activation at `(e, k)` is `hiddenAct` of its gathered rows. -/
theorem hidden_eq (x0 : (⟨S50000x512, .f32⟩ : BufTy).Contents (Elt Ideal)) (x1 x2 : (⟨S200000, .i32⟩ : BufTy).Contents (Elt Ideal))
    (x3 : (⟨S1024x1024, .f32⟩ : BufTy).Contents (Elt Ideal)) (x4 : (⟨S1024, .f32⟩ : BufTy).Contents (Elt Ideal))
    (e : Fin 200000) (k : Fin 1024) :
    val_main_v19 (F := Ideal) x0 x1 x2 x3 x4 (ix2 e k)
      = hiddenAct (val_main_v6 (F := Ideal) x0 x1) (val_main_v13 (F := Ideal) x0 x2) x3 x4 e k := by
  rw [val_main_v19_apply, val_main_v18_apply, val_main_v15_apply, val_main_v17_apply, val_main_v16_apply,
    val_main_call0_v0_apply, val_main_call0_cst_apply]
  unfold hiddenAct
  rw [Ideal.maximumf_def, Ideal.addf_def, Ideal.ofBits_def, Ideal.ofBits_zero_f32, sum_halves]
  simp only [lidx15, ridx15, bidx1]
  unfold val_main_v14
  simp only [cat_upper, cat_lower]

/-- THE REFERENCE'S RESULT is `score` of its gathered rows and the parameters. -/
theorem result_eq (x0 : (⟨S50000x512, .f32⟩ : BufTy).Contents (Elt Ideal)) (x1 x2 : (⟨S200000, .i32⟩ : BufTy).Contents (Elt Ideal))
    (x3 : (⟨S1024x1024, .f32⟩ : BufTy).Contents (Elt Ideal)) (x4 : (⟨S1024, .f32⟩ : BufTy).Contents (Elt Ideal))
    (x5 : (⟨S1024x1, .f32⟩ : BufTy).Contents (Elt Ideal)) (x6 : (⟨S1, .f32⟩ : BufTy).Contents (Elt Ideal)) :
    val_main_v23 (F := Ideal) x0 x1 x2 x3 x4 x5 x6
      = score (val_main_v6 (F := Ideal) x0 x1) (val_main_v13 (F := Ideal) x0 x2) x3 x4 x5 x6 := by
  funext i
  obtain ⟨e, q, rfl⟩ : ∃ (e : Fin 200000) (q : Fin 1), i = ix2 e q := ⟨i 0, i 1, eq_ix2 i⟩
  rw [val_main_v23_apply, val_main_v20_apply, val_main_v22_apply, val_main_v21_apply, Ideal.addf_def]
  simp only [lidx20, ridx20, bidx2, hidden_eq]
  rfl

end Cert.ReferenceIdeal.RefValue

end
-- ==== Proof.lean ====
/-
  An edge scorer of a graph network: for each of 200000 edges the feature rows of its two end nodes are gathered from a
  [50000, 512] table, and a two-layer perceptron — a [1024, 1024] weight with bias and a clamp at zero, then a
  [1024, 1] weight with bias — scores the pair.  The kernel tiles the edges in 100 blocks of 2000 and multiplies the
  source rows by the weight's upper 512 rows and the destination rows by its lower 512 rows; the reference concatenates
  the two rows and multiplies by the whole weight.  Over the extended reals both are

      score e = Σ_k max (Σ_j xs[e,j] · W1[j,k] + Σ_j xd[e,j] · W1[512+j,k] + b1[k]) 0 · W2[k,0] + b2[0],

  because a sum over the 1024 rows of the weight is the sum over its upper half plus the sum over its lower half; that
  law holds in any commutative monoid, so the inputs' finiteness is never used.

  Proof/Spec.lean states `score` and the tiled arrangement; Proof/Body.lean reads the kernel body's stored column at an
  entry; Proof/KernelValue.lean lifts that to the whole result array and the run; Proof/RefValue.lean reads the
  reference's term at an entry.  Both programs compute the gathered rows by the same host operations, so those are kept
  as one unopened function on both sides (`gather_src`, `gather_dst`).  The kernel's idealization rewrote nothing, so
  `preserves` is `True`.
-/
import proofs.«136014_j23252952940858_1_alg».proof.Defs
import proofs.«136014_j23252952940858_1_alg».proof.Proof.Gen.Kernel
import proofs.«136014_j23252952940858_1_alg».proof.Proof.Gen.Kernel.Skeleton
import proofs.«136014_j23252952940858_1_alg».proof.Proof.Gen.Kernel.Launch
import proofs.«136014_j23252952940858_1_alg».proof.Proof.Gen.Kernel.Points
import proofs.«136014_j23252952940858_1_alg».proof.Proof.Gen.Kernel.Frame
import proofs.«136014_j23252952940858_1_alg».proof.Proof.Gen.KernelIdeal
import proofs.«136014_j23252952940858_1_alg».proof.Proof.Gen.KernelIdeal.Skeleton
import proofs.«136014_j23252952940858_1_alg».proof.Proof.Gen.KernelIdeal.Launch
import proofs.«136014_j23252952940858_1_alg».proof.Proof.Gen.KernelIdeal.Points
import proofs.«136014_j23252952940858_1_alg».proof.Proof.Gen.KernelIdeal.Frame
import proofs.«136014_j23252952940858_1_alg».proof.Proof.Gen.ReferenceIdeal
import proofs.«136014_j23252952940858_1_alg».proof.Proof.Gen.Pre_finite_inputs
import proofs.«136014_j23252952940858_1_alg».proof.Proof.Gen.KernelIdeal.Value
import proofs.«136014_j23252952940858_1_alg».proof.Proof.Gen.ReferenceIdeal.Run
import proofs.«136014_j23252952940858_1_alg».proof.Proof.Gen.ReferenceIdeal.Read
import proofs.«136014_j23252952940858_1_alg».proof.Proof.KernelValue
import proofs.«136014_j23252952940858_1_alg».proof.Proof.RefValue
import Idealize.ShloMosaic.Adequacy
import Idealize.ShloMosaic.Init

noncomputable section

namespace Cert.Proof

open Idealize.ShloMosaic Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The two programs gather alike -/

/-- The reference's gathered source rows are the kernel program's: the same host operations on the same arguments. -/
theorem gather_src (x : (⟨Cert.ReferenceIdeal.S50000x512, .f32⟩ : BufTy).Contents (Elt Ideal))
    (idx : (⟨Cert.ReferenceIdeal.S200000, .i32⟩ : BufTy).Contents (Elt Ideal)) :
    Cert.ReferenceIdeal.Read.val_main_v6 (F := Ideal) x idx = Cert.KernelIdeal.Whole.gatherRows x idx := rfl
/-- Likewise the destination rows. -/
theorem gather_dst (x : (⟨Cert.ReferenceIdeal.S50000x512, .f32⟩ : BufTy).Contents (Elt Ideal))
    (idx : (⟨Cert.ReferenceIdeal.S200000, .i32⟩ : BufTy).Contents (Elt Ideal)) :
    Cert.ReferenceIdeal.Read.val_main_v13 (F := Ideal) x idx = Cert.KernelIdeal.Whole.gatherRows x idx := rfl

/-! ## Equal results -/

/-- From memories agreeing on the arguments both programs end with the result array at `score` of the gathered rows and
    the parameters. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v23_eq, Cert.ReferenceIdeal.RefValue.result_eq, gather_src, gather_dst,
    h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
